-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x64 : Shape := ⟨2, ![800000, 64]⟩
abbrev S320x256 : Shape := ⟨2, ![320, 256]⟩
abbrev S256 : Shape := ⟨1, ![256]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : FVec F S800000x64 .f32) (main_arg2 : FVec F S320x256 .f32) (main_arg3 : FVec F S256 .f32) (main_arg4 : IVec S800000 32) (main_arg5 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x256 .f32 := Host.absf main_arg2
  let main_cst_2 : FVec F S_ .f32 := constant S_ .f32 0x7F800000#32
  let main_v10 : FVec F S320x256 .f32 := broadcastInDim S320x256 ![] bcast_S_S320x256 main_cst_2
  let main_v11 : IVec S320x256 1 := cmpf .olt main_v9 main_v10
  let main_c_3 : IVec S_ 1 := constantI S_ 1 1#1
  let main_v12 : IVec S_ 1 := (fun x v => Host.reduce IntOp.andi x v reducesTo_S320x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S800000x64 : Shape := ⟨2, ![800000, 64]⟩
abbrev S320x256 : Shape := ⟨2, ![320, 256]⟩
abbrev S256 : Shape := ⟨1, ![256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x256 : Shape := ⟨2, ![5000, 256]⟩
abbrev S5000x1 : Shape := ⟨2, ![5000, 1]⟩
abbrev S800000x256 : Shape := ⟨2, ![800000, 256]⟩
abbrev S50000x64 : Shape := ⟨2, ![50000, 64]⟩
abbrev S5000x64 : Shape := ⟨2, ![5000, 64]⟩
abbrev S256x256 : Shape := ⟨2, ![256, 256]⟩
abbrev S64x256 : Shape := ⟨2, ![64, 256]⟩
abbrev S1x256 : Shape := ⟨2, ![1, 256]⟩

abbrev nBuf : Space → Nat
  | .hbm => 49
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S800000x64, .f32⟩
  | .hbm, ⟨2, _⟩ => ⟨S320x256, .f32⟩
  | .hbm, ⟨3, _⟩ => ⟨S256, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x256, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x256, .f32⟩
  | .hbm, ⟨29, _⟩ => ⟨S_, .f32⟩
  | .hbm, ⟨30, _⟩ => ⟨S50000x256, .f32⟩
  | .hbm, ⟨31, _⟩ => ⟨S800000x1, .i32⟩
  | .hbm, ⟨32, _⟩ => ⟨S50000x256, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x64, .f32⟩
  | .local _ .vmem, ⟨9, _⟩ => ⟨S5000x64, .f32⟩
  | .local _ .vmem, ⟨10, _⟩ => ⟨S320x256, .f32⟩
  | .local _ .vmem, ⟨11, _⟩ => ⟨S256, .f32⟩
  | .local _ .vmem, ⟨12, _⟩ => ⟨S5000x1, .f32⟩
  | .local _ .vmem, ⟨13, _⟩ => ⟨S5000x1, .f32⟩
  | .local _ .vmem, ⟨14, _⟩ => ⟨S5000x256, .f32⟩
  | .local _ .vmem, ⟨15, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S320x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bcast_S_S50000x256 : S_.BroadcastsInDim S50000x256 (![] : Fin 0 → Fin S50000x256.rank)
  bcast_S_S50000x64 : S_.BroadcastsInDim S50000x64 (![] : Fin 0 → Fin S50000x64.rank)
  inb_S320x256_S320x256_0_0 : ∀ a, (![0, 0] : Fin 2 → Nat) a + S320x256.size a ≤ S320x256.size a
  h_S320x256 : 0 < S320x256.numel
  slices_S320x256_o0_0_S256x256 : S320x256.Slices ![0, 0] S256x256
  slices_S320x256_o256_0_S64x256 : S320x256.Slices ![256, 0] S64x256
  shapeCasts_S5000x256_S5000x256 : S5000x256.ShapeCasts S5000x256
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000x64_S800000x1_S800000x64_1_0_0_1_wf : ScatterDims.WF S50000x64 S800000x1 S800000x64 [1] [0] [0] 1
  dot_S5000x256_S256x256_S5000x256_1_0_0_1_n_n_wf : DotDims.WF S5000x256 S256x256 S5000x256 [1] [0] [0] [1] [] []
  dot_S5000x64_S64x256_S5000x256_1_0_0_1_n_n_wf : DotDims.WF S5000x64 S64x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S320x256.size a ≤ S320x256.size a
  hwx1_2 : ∀ i : grid1.Coords, EltTy.bits .f32 = 32 ∨ (Rect.block (s := S320x256) S320x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S320x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000x64 : Shape := ⟨2, ![800000, 64]⟩
abbrev S320x256 : Shape := ⟨2, ![320, 256]⟩
abbrev S256 : Shape := ⟨1, ![256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S50000x64 : Shape := ⟨2, ![50000, 64]⟩
abbrev S50000x320 : Shape := ⟨2, ![50000, 320]⟩
abbrev S1x256 : Shape := ⟨2, ![1, 256]⟩

abbrev nBuf : Space → Nat
  | .hbm => 59
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x64, .f32⟩
  | .hbm, ⟨2, _⟩ => ⟨S320x256, .f32⟩
  | .hbm, ⟨3, _⟩ => ⟨S256, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x256, .f32⟩
  | .hbm, ⟨20, _⟩ => ⟨S50000x256, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x256, .f32⟩
  | .hbm, ⟨30, _⟩ => ⟨S_, .f32⟩
  | .hbm, ⟨31, _⟩ => ⟨S50000x256, .f32⟩
  | .hbm, ⟨32, _⟩ => ⟨S800000x1, .i32⟩
  | .hbm, ⟨33, _⟩ => ⟨S50000x256, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x320, .f32⟩
  | .hbm, ⟨39, _⟩ => ⟨S50000x256, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x256, .f32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_cst : Ref sig .tc := ⟨.hbm, 56, rfl⟩
abbrev main_call0_v0 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S_S50000x64 : S_.BroadcastsInDim S50000x64 (![] : Fin 0 → Fin S50000x64.rank)
  concatenates_S50000x256_S50000x64_S50000x320_d1 : Shape.Concatenates [S50000x256, S50000x64] S50000x320 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000x64_S800000x1_S800000x64_1_0_0_1_wf : ScatterDims.WF S50000x64 S800000x1 S800000x64 [1] [0] [0] 1
  dot_S50000x320_S320x256_S50000x256_1_0_0_1_n_n_wf : DotDims.WF S50000x320 S320x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x320_S320x256_S50000x256_1_0_0_1_n_n : DotDims S50000x320 S320x256 S50000x256 where
  lhsContracting := [1]
  rhsContracting := [0]
  lhsNonContracting := [0]
  rhsNonContracting := [1]
  lhsBatch := []
  rhsBatch := []
  wf := dot_S50000x320_S320x256_S50000x256_1_0_0_1_n_n_wf

class Facts : Prop extends Facts₀ where

variable [Facts]
-- ==== Proof.HostTerms.lean ====
/-
  The host-side pieces of the layer, each named as one function of the arrays it reads.

  A node's scale is `max(degree, 1) ^ (-1/2)`, the degree being the number of edges whose index array names the node: a
  scatter-add of ones into zeros. It is laid out as a column. An edge's source index is wrapped once (a negative index
  is read from the end) before the rows of the scaled features are gathered along the edges; the gathered rows and
  the edge features are then summed into their destination nodes by two more scatter-adds into zeros. Nothing here is
  opened: both programs apply the same operations, so these names only carry them from one side to the other.
-/
import proofs.«108261_j13829794693475_1_alg».proof.Proof.Gen.KernelIdeal

noncomputable section

namespace Cert.KernelIdeal.HostTerms

open Cert.KernelIdeal Cert.KernelIdeal.Facts₀ Idealize.ShloMosaic

variable {F : FTy → Type} [FloatOps F]

/-- One for every edge. -/
def edgeOnes : (⟨S800000, .f32⟩ : BufTy).Contents (Elt F) :=
  broadcastInDim S800000 ![] bcast_S_S800000 (constant S_ .f32 0x3F800000#32)

/-- The column of node scales `max(deg, 1) ^ (-1/2)`, `deg` the sum of `ones` over the edges that `idx` sends to the node. -/
def scaleCol (ones : (⟨S800000, .f32⟩ : BufTy).Contents (Elt F)) (idx : (⟨S800000, .i32⟩ : BufTy).Contents (Elt F)) :
    (⟨S50000x1, .f32⟩ : BufTy).Contents (Elt F) :=
  shapeCast S50000x1
    (Host.powf
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 idx)
          ones)
        (broadcastInDim S50000 ![] bcast_S_S50000 (constant S_ .f32 0x3F800000#32)))
      (broadcastInDim S50000 ![] bcast_S_S50000 (constant S_ .f32 0xBF000000#32)))
    shapeCasts_S50000_S50000x1

/-- The rows of `fn` gathered along the edges' (wrapped) source indices, summed into the edges' destination nodes. -/
def aggNodes (fn : (⟨S50000x256, .f32⟩ : BufTy).Contents (Elt F)) (src dst : (⟨S800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (Host.gather gather_S50000x256_S800000x1_S800000x256_1_0_n_n_0_1_1256 fn
      (broadcastInDim S800000x1 ![0] bcast_S800000_S800000x1_0
        (select
          (cmpi CmpIPredicate.slt src (broadcastInDim S800000 ![] bcast_S_S800000 (constantI S_ 32 0#32)))
          (addi src (broadcastInDim S800000 ![] bcast_S_S800000 (constantI S_ 32 50000#32)))
          src)))

/-- The edge features summed into the edges' destination nodes. -/
def aggEdges (e : (⟨S800000x64, .f32⟩ : BufTy).Contents (Elt F)) (dst : (⟨S800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    e

end Cert.KernelIdeal.HostTerms

end
-- ==== Proof.Boundaries.lean ====
/-
  What the buffers hold at the boundaries of the idealized kernel's run.

  The run's memory is followed boundary by boundary: after the first stretch of host operations the column of source
  scales is `scaleCol` of the source indices and the features are untouched; the first region overwrites only its own
  output, so every other buffer passes through it; after the second stretch the two aggregates and the column of
  destination scales are the host pieces of `HostTerms` applied to the first region's output and to the arguments; the
  weight and the bias pass through unchanged. The arguments are never written.
-/
import proofs.«108261_j13829794693475_1_alg».proof.Proof.Gen.KernelIdeal.Frame
import proofs.«108261_j13829794693475_1_alg».proof.Proof.HostTerms
import Idealize.ShloMosaic.Lib.StableHlo.Run

set_option maxRecDepth 16384

noncomputable section

namespace Cert.KernelIdeal.Boundaries

open Cert.KernelIdeal Cert.KernelIdeal.Gen Cert.KernelIdeal.HostTerms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
/-- The ones the degrees are counted with. -/
theorem W1_v0 (c : Dev nD) : W1 m ρ c (Proc.devRef .tc main_v0) = edgeOnes (F := F) := by
  show StableHlo.after hostOps0 (W0 m ρ c) (Proc.devRef .tc main_v0) = _
  after_results; rfl
/-- The column of source scales. -/
theorem W1_v8 (c : Dev nD) :
    W1 m ρ c (Proc.devRef .tc main_v8) = scaleCol (F := F) edgeOnes (m ((c : Thread nD τ).loc main_arg4)) := by
  show StableHlo.after hostOps0 (W0 m ρ c) (Proc.devRef .tc main_v8) = _
  after_results; rfl

/-! ## Through the first region: every buffer but its output passes -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_v0 (c : Dev nD) : W2 m ρ c (Proc.devRef .tc main_v0) = edgeOnes (F := F) :=
  (W2_of_ne m ρ c main_v0 (by decide)).trans (W1_v0 m ρ c)

/-! ## After the second stretch -/

/-- The node aggregate: the first region's output gathered along the edges and summed by destination. -/
theorem W3_v19 (c : Dev nD) :
    W3 m ρ c (Proc.devRef .tc main_v19)
      = aggNodes (F := F) (W2 m ρ c (Proc.devRef .tc main_v9)) (m ((c : Thread nD τ).loc main_arg4)) (m ((c : Thread nD τ).loc main_arg5)) := by
  show StableHlo.after hostOps1 (W2 m ρ c) (Proc.devRef .tc main_v19) = _
  after_results
  rw [W2_arg4, W2_arg5]; rfl
/-- The edge aggregate. -/
theorem W3_v22 (c : Dev nD) :
    W3 m ρ c (Proc.devRef .tc main_v22)
      = aggEdges (F := F) (m ((c : Thread nD τ).loc main_arg1)) (m ((c : Thread nD τ).loc main_arg5)) := by
  show StableHlo.after hostOps1 (W2 m ρ c) (Proc.devRef .tc main_v22) = _
  after_results
  rw [W2_arg1, W2_arg5]; rfl
/-- The column of destination scales. -/
theorem W3_v30 (c : Dev nD) :
    W3 m ρ c (Proc.devRef .tc main_v30) = scaleCol (F := F) edgeOnes (m ((c : Thread nD τ).loc main_arg5)) := by
  show StableHlo.after hostOps1 (W2 m ρ c) (Proc.devRef .tc main_v30) = _
  after_results
  rw [W2_arg5, W2_v0]; rfl
theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg3 (c : Dev nD) : W3 m ρ c (Proc.devRef .tc main_arg3) = m ((c : Thread nD τ).loc main_arg3) := by
  show StableHlo.after hostOps1 (W2 m ρ c) (Proc.devRef .tc main_arg3) = _
  after_results
  exact W2_arg3 m ρ c

end Cert.KernelIdeal.Boundaries

end
-- ==== Proof.ScaleRows.lean ====
import proofs.«108261_j13829794693475_1_alg».proof.Proof.Gen.KernelIdeal.Frame
import Idealize.ShloMosaic.Lib.Pipeline.Value
import Idealize.ShloMosaic.Lib.ValueIdx
import Idealize.ShloMosaic.Lib.ValueLayout
noncomputable section
namespace Cert.KernelIdeal.ScaleRows
open Cert.KernelIdeal Cert.KernelIdeal.Gen Idealize.ShloMosaic Idealize.ShloMosaic.TcCoe Idealize.SL.Sem

/-- The one entry of the column array that row `i 0` reads. -/
abbrev colOf (i : S50000x256.Idx) : S50000x1.Idx := fun a => match a with
  | ⟨0, _⟩ => ⟨(i 0).val, (i 0).isLt⟩
  | ⟨1, _⟩ => ⟨0, Nat.one_pos⟩

/-- Every row of `x` scaled by its row's entry of the column `n`. -/
def rowsScaled (x : (⟨S50000x256, .f32⟩ : BufTy).Contents (Elt Ideal)) (n : (⟨S50000x1, .f32⟩ : BufTy).Contents (Elt Ideal)) :
    (⟨S50000x256, .f32⟩ : BufTy).Contents (Elt Ideal) :=
  fun i => FloatOps.mulf (F := Ideal) (φ := .f32) (x i) (n (colOf i))

/-- The zero offsets of a whole-block access, however they are spelt. -/
theorem zeroOff : (![0, 0] : Fin 2 → Nat) = fun _ => 0 := funext fun a => by fin_cases a <;> rfl

/-- Inside one block: the one entry of the column block that row `j 0` of the block reads. -/
abbrev colOfBlk (j : S5000x256.Idx) : S5000x1.Idx := fun a => match a with
  | ⟨0, _⟩ => ⟨(j 0).val, (j 0).isLt⟩
  | ⟨1, _⟩ => ⟨0, Nat.one_pos⟩

/-- The body's payload at an index of the block: the feature entry times its row's entry of the column block
    (the column block is cast to its own shape, broadcast along the row, and multiplied in pointwise). -/
theorem pay_apply (x0 : FVec Ideal S5000x256 .f32) (x1 : FVec Ideal S5000x1 .f32) (j : S5000x256.Idx) :
    k0_pay1 (F := Ideal) x0 x1 j = FloatOps.mulf (x0 j) (x1 (colOfBlk j)) := by
  unfold k0_pay1
  show FloatOps.mulf (x0 j) (broadcastTo S5000x256 (shapeCast S5000x1 x1 shapeCasts_S5000x1_S5000x1) broadcasts_S5000x1_S5000x256 j) = _
  rw [shapeCast_self]
  refine congrArg (FloatOps.mulf (x0 j)) (broadcastTo_apply x1 _ j (colOfBlk j) fun a => ?_)
  match a with
  | ⟨0, _⟩ => exact (if_neg (show ¬((5000 : Nat) = 1) by decide)).symm
  | ⟨1, _⟩ => exact (if_pos rfl).symm

variable (V : (c : Dev nD) → (b : Ref sig .tc) → Buf (Elt Ideal) ((c : Thread nD τ).loc b))

/-- The three index maps over the grid: point `t` takes row block `t` of each array, and the only column block. -/
theorem idx_facts : ∀ t : Fin cfg0.N,
    win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point `t` writes back is block `t` of `rowsScaled` of the two input arrays as the region found them. -/
theorem flushed_eq (c : Dev nD) (t : Fin cfg0.N) :
    (dat0 (F := Ideal) V c).flushed 2 t
      = ((cfg0.win 2).blk t).view.read (Elt Ideal) (rowsScaled (V c main_arg0) (V c main_v8)) := by
  show (cfg0.win 2).cut (grid0.coords t) ((dat0 (F := Ideal) V c).after 2 t) = _
  rw [after0_2]
  unfold out0_2
  rw [View.canon_unit_zero zeroOff]
  simp only [View.ld_unit_zero (S := S5000x256) zeroOff, View.ld_unit_zero (S := S5000x1) zeroOff]
  obtain ⟨e0, e1, e2, e3, e4, e5⟩ := idx_facts t
  funext j
  refine (pay_apply _ _ j).trans ?_
  show FloatOps.mulf (F := Ideal) (φ := .f32) (V c main_arg0 (((cfg0.win 0).blk t).view.emb j)) (V c main_v8 (((cfg0.win 1).blk t).view.emb (colOfBlk j)))
    = FloatOps.mulf (F := Ideal) (φ := .f32) (V c main_arg0 (((cfg0.win 2).blk t).view.emb j)) (V c main_v8 (colOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * (j 1).val = win0_2.index t (1 : Fin 2) * 256 + 1 * (j 1).val; omega
  have h1 : ((cfg0.win 1).blk t).view.emb (colOfBlk j) = colOf (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v9).slice (win0_2.rect t)).set ↔ _
  rw [View.set_slice_whole, Rect.mem_set_unit]
  exact Iff.rfl

/-- The ten row blocks fill the output array: row `r` is in the block of the point whose block index is `r / 5000`. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After region 0 its output array is `rowsScaled` of the two input arrays as the region found them. -/
theorem final (c : Dev nD) :
    (dat0 (F := Ideal) V c).arrAt 2 cfg0.N = rowsScaled (V c main_arg0) (V c main_v8) :=
  (dat0 (F := Ideal) V c).arrAt_eq_of_cover 2 (rowsScaled (V c main_arg0) (V c main_v8))
    (fun t _ => flushed_eq V c t) cover

end Cert.KernelIdeal.ScaleRows
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.LayerRows.lean ====
/-
  The layer's rows. One block of 5000 rows of the output is

      max ((H · Wtop + E · Wbot) * n + b, 0)

  where `H` is the block of the 256-wide aggregate, `E` the block of the 64-wide aggregate, `Wtop` rows 0 … 255 and `Wbot`
  rows 256 … 319 of the 320 x 256 weight, `n` the block of the column of row scales spread over the 256 columns and `b` the
  bias spread over the rows. At the ideal values each product is the plain sum over the contracted axis, so the entry
  `(p, q)` of a block depends on row `p` of `H`, `E` and `n`, on column `q` of the weight and on entry `q` of the bias. The ten
  blocks tile the 50000 rows, so the whole output array is one function `layer` of the five input arrays, entry by entry.
-/
import proofs.«108261_j13829794693475_1_alg».proof.Proof.Gen.KernelIdeal.Frame
import proofs.«108261_j13829794693475_1_alg».proof.Proof.LibDot
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.LayerRows
open Cert.KernelIdeal Cert.KernelIdeal.Gen Idealize.ShloMosaic Idealize.ShloMosaic.TcCoe Idealize.SL.Sem

/-- The entries an output entry `i = (p, q)` reads: `(p, k)` of the two aggregates, `(k, q)` and `(256 + k, q)` of the weight, `(p, 0)` of the column, `q` of the bias. -/
abbrev colOf (i : S50000x256.Idx) : S50000x1.Idx := fun a => match a with
  | ⟨0, _⟩ => ⟨(i 0).val, (i 0).isLt⟩
  | ⟨1, _⟩ => ⟨0, Nat.one_pos⟩
abbrev hAt (i : S50000x256.Idx) (k : Fin 256) : S50000x256.Idx := fun a => match a with
  | ⟨0, _⟩ => ⟨(i 0).val, (i 0).isLt⟩
  | ⟨1, _⟩ => ⟨k.val, k.isLt⟩
abbrev eAt (i : S50000x256.Idx) (k : Fin 64) : S50000x64.Idx := fun a => match a with
  | ⟨0, _⟩ => ⟨(i 0).val, (i 0).isLt⟩
  | ⟨1, _⟩ => ⟨k.val, k.isLt⟩
abbrev wTop (i : S50000x256.Idx) (k : Fin 256) : S320x256.Idx := fun a => match a with
  | ⟨0, _⟩ => ⟨k.val, by have := k.isLt; show k.val < 320; omega⟩
  | ⟨1, _⟩ => ⟨(i 1).val, (i 1).isLt⟩
abbrev wBot (i : S50000x256.Idx) (k : Fin 64) : S320x256.Idx := fun a => match a with
  | ⟨0, _⟩ => ⟨256 + k.val, by have := k.isLt; show 256 + k.val < 320; omega⟩
  | ⟨1, _⟩ => ⟨(i 1).val, (i 1).isLt⟩
abbrev biasAt (i : S50000x256.Idx) : S256.Idx := fun a => match a with
  | ⟨0, _⟩ => ⟨(i 1).val, (i 1).isLt⟩

/-- The layer's output from the two aggregates, the weight, the bias and the column of row scales. -/
def layer (h : (⟨S50000x256, .f32⟩ : BufTy).Contents (Elt Ideal)) (e : (⟨S50000x64, .f32⟩ : BufTy).Contents (Elt Ideal))
    (w : (⟨S320x256, .f32⟩ : BufTy).Contents (Elt Ideal)) (b : (⟨S256, .f32⟩ : BufTy).Contents (Elt Ideal))
    (n : (⟨S50000x1, .f32⟩ : BufTy).Contents (Elt Ideal)) : (⟨S50000x256, .f32⟩ : BufTy).Contents (Elt Ideal) :=
  fun i => FloatOps.maximumf (F := Ideal)
    (FloatOps.addf (F := Ideal) (FloatOps.mulf (F := Ideal) (FloatOps.addf (F := Ideal) (∑ k : Fin 256, h (hAt i k) * w (wTop i k)) (∑ k : Fin 64, e (eAt i k) * w (wBot i k))) (n (colOf i))) (b (biasAt i)))
    (FloatOps.ofBits (F := Ideal) .f32 0x00000000#32)

/-! ## The two products read at an entry

At the ideal values a product into the zero accumulator is, at entry `(p, q)`, the sum over the contracted axis of
`lhs (p, k) * rhs (k, q)`; each of the two dimension records is the plain rows-by-columns record of its sizes. -/

/-- The 5000x256 by 256x256 product at `(p, q)`. -/
theorem prodTop_apply (a : FVec Ideal S5000x256 .f32) (b : FVec Ideal S256x256 .f32) (p : Fin 5000) (q : Fin 256) :
    matmul (F := Ideal) dot_S5000x256_S256x256_S5000x256_1_0_0_1_n_n none a b (constant S5000x256 .f32 0x00000000#32) (ValueIdx.ix2 p q)
      = ∑ k : Fin 256, a (ValueIdx.ix2 p k) * b (ValueIdx.ix2 k q) :=
  Cert.GNN.matmul_plain_zero_apply (M := 5000) (K := 256) (N := 256) none a b p q

/-- The 5000x64 by 64x256 product at `(p, q)`. -/
theorem prodBot_apply (a : FVec Ideal S5000x64 .f32) (b : FVec Ideal S64x256 .f32) (p : Fin 5000) (q : Fin 256) :
    matmul (F := Ideal) dot_S5000x64_S64x256_S5000x256_1_0_0_1_n_n none a b (constant S5000x256 .f32 0x00000000#32) (ValueIdx.ix2 p q)
      = ∑ k : Fin 64, a (ValueIdx.ix2 p k) * b (ValueIdx.ix2 k q) :=
  Cert.GNN.matmul_plain_zero_apply (M := 5000) (K := 64) (N := 256) none a b p q

/-! ## The layout operations read at an entry -/

/-- A column `[a, 1]` spread over `b` columns reads, at `(p, q)`, the column's entry `(p, 0)`. -/
theorem spreadCol_apply {a b : ℕ} (v : (⟨2, ![a, 1]⟩ : Shape).Idx → EReal) (h : (⟨2, ![a, 1]⟩ : Shape).Broadcasts ⟨2, ![a, b]⟩)
    (p : Fin a) (q : Fin b) : broadcastTo ⟨2, ![a, b]⟩ v h (ValueIdx.ix2 p q) = v (ValueIdx.ix2 p (0 : Fin 1)) := by
  refine broadcastTo_apply v h (ValueIdx.ix2 p q) (ValueIdx.ix2 p (0 : Fin 1)) fun ax => ?_
  match ax with
  | ⟨0, _⟩ =>
    show p.val = if a = 1 then 0 else p.val
    split
    · have := p.isLt; omega
    · rfl
  | ⟨1, _⟩ => rfl

/-- The payload of the layer's kernel at entry `(p, q)` of its block, over the five loaded blocks. -/
theorem pay_apply (w : Vec Ideal S320x256 .f32) (h : Vec Ideal S5000x256 .f32) (e : Vec Ideal S5000x64 .f32)
    (n : Vec Ideal S5000x1 .f32) (b : Vec Ideal S256 .f32) (p : Fin 5000) (q : Fin 256) :
    k1_pay1 (F := Ideal) w h e n b (ValueIdx.ix2 p q)
      = FloatOps.maximumf (F := Ideal)
          (FloatOps.addf (F := Ideal) (FloatOps.mulf (F := Ideal) (FloatOps.addf (F := Ideal)
              (∑ k : Fin 256, h (ValueIdx.ix2 p k) * w (ValueIdx.ix2 (⟨k.val, by have := k.isLt; omega⟩ : Fin 320) q))
              (∑ k : Fin 64, e (ValueIdx.ix2 p k) * w (ValueIdx.ix2 (⟨256 + k.val, by have := k.isLt; omega⟩ : Fin 320) q)))
            (n (ValueIdx.ix2 p (0 : Fin 1)))) (b (ValueIdx.ix1 q)))
          (FloatOps.ofBits (F := Ideal) .f32 0x00000000#32) := by
  unfold k1_pay1
  refine congrArg₂ (FloatOps.maximumf (F := Ideal)) (congrArg₂ (FloatOps.addf (F := Ideal)) (congrArg₂ (FloatOps.mulf (F := Ideal))
    (congrArg₂ (FloatOps.addf (F := Ideal)) ?_ ?_) ?_) ?_) rfl
  · refine (prodTop_apply _ _ p q).trans (Finset.sum_congr rfl fun k _ => ?_)
    rw [shapeCast_self]
    exact congrArg _ (ValueIdx.slice2_axis0_apply 0 w _ k q ⟨k.val, by have := k.isLt; omega⟩ (Nat.zero_add _).symm)
  · refine (prodBot_apply _ _ p q).trans (Finset.sum_congr rfl fun k _ => ?_)
    rw [shapeCast_self]
    exact congrArg _ (ValueIdx.slice2_axis0_apply 256 w _ k q ⟨256 + k.val, by have := k.isLt; omega⟩ rfl)
  · rw [shapeCast_self]
    exact spreadCol_apply n _ p q
  · exact (ValueIdx.broadcastTo_1b_ab_apply _ _ p q).trans (ValueIdx.shapeCast_a_1a_apply b _ (0 : Fin 1) q)

/-! ## From the blocks to the arrays -/

/-- The payload at entry `j` of the block of rows `5000 r, …, 5000 r + 4999` is the layer's output at the array's entry `i` under it, when
    each loaded block reads its array where the layer reads it: the two aggregates' and the column's blocks at the same rows,
    the weight and the bias whole. -/
theorem pay_eq_layer (H : (⟨S50000x256, .f32⟩ : BufTy).Contents (Elt Ideal)) (E : (⟨S50000x64, .f32⟩ : BufTy).Contents (Elt Ideal))
    (W : (⟨S320x256, .f32⟩ : BufTy).Contents (Elt Ideal)) (B : (⟨S256, .f32⟩ : BufTy).Contents (Elt Ideal))
    (N : (⟨S50000x1, .f32⟩ : BufTy).Contents (Elt Ideal))
    (w : Vec Ideal S320x256 .f32) (h : Vec Ideal S5000x256 .f32) (e : Vec Ideal S5000x64 .f32)
    (n : Vec Ideal S5000x1 .f32) (b : Vec Ideal S256 .f32) (r : ℕ)
    (hw : ∀ (k : Fin 320) (q : Fin 256) (x : S320x256.Idx), (x 0).val = k.val → (x 1).val = q.val → w (ValueIdx.ix2 k q) = W x)
    (hh : ∀ (p : Fin 5000) (k : Fin 256) (x : S50000x256.Idx), (x 0).val = r * 5000 + p.val → (x 1).val = k.val → h (ValueIdx.ix2 p k) = H x)
    (he : ∀ (p : Fin 5000) (k : Fin 64) (x : S50000x64.Idx), (x 0).val = r * 5000 + p.val → (x 1).val = k.val → e (ValueIdx.ix2 p k) = E x)
    (hn : ∀ (p : Fin 5000) (x : S50000x1.Idx), (x 0).val = r * 5000 + p.val → n (ValueIdx.ix2 p (0 : Fin 1)) = N x)
    (hb : ∀ (q : Fin 256) (x : S256.Idx), (x 0).val = q.val → b (ValueIdx.ix1 q) = B x)
    (j : S5000x256.Idx) (i : S50000x256.Idx) (hi0 : (i 0).val = r * 5000 + (j 0).val) (hi1 : (i 1).val = (j 1).val) :
    k1_pay1 (F := Ideal) w h e n b j = layer H E W B N i := by
  obtain ⟨p, q, rfl⟩ : ∃ (p : Fin 5000) (q : Fin 256), j = ValueIdx.ix2 p q := ⟨j 0, j 1, ValueIdx.eq_ix2 j⟩
  rw [pay_apply]
  unfold layer
  refine congrArg₂ (FloatOps.maximumf (F := Ideal)) (congrArg₂ (FloatOps.addf (F := Ideal)) (congrArg₂ (FloatOps.mulf (F := Ideal))
    (congrArg₂ (FloatOps.addf (F := Ideal)) ?_ ?_) ?_) ?_) rfl
  · exact Finset.sum_congr rfl fun k _ => congrArg₂ (· * ·) (hh p k (hAt i k) hi0 rfl) (hw _ q (wTop i k) rfl hi1)
  · exact Finset.sum_congr rfl fun k _ => congrArg₂ (· * ·) (he p k (eAt i k) hi0 rfl) (hw _ q (wBot i k) rfl hi1)
  · exact hn p (colOf i) hi0
  · exact hb q (biasAt i) hi1

variable (V : (c : Dev nD) → (b : Ref sig .tc) → Buf (Elt Ideal) ((c : Thread nD τ).loc b))

theorem zeroOff2 : (![0, 0] : Fin 2 → Nat) = fun _ => 0 := funext fun a => by fin_cases a <;> rfl
theorem zeroOff1 : (![0] : Fin 1 → Nat) = fun _ => 0 := funext fun a => by fin_cases a; rfl

/-- The index maps over the ten grid points: the two aggregates' and the column's windows move with the output's down
    the rows, on block column 0; the weight's and the bias's stay at block 0; the output's block row is at most 9. -/
theorem blockRows : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = win1_5.index t (0 : Fin 2) ∧ win1_4.index t (1 : Fin 2) = 0
    ∧ win1_5.index t (0 : Fin 2) ≤ 9 ∧ win1_5.index t (1 : Fin 2) = 0 :=
  (by decide +kernel : ∀ t : Fin grid1.N, _)

/-- Every block row of the output is some point's. -/
theorem blockRows_onto : ∀ r : Fin 10, ∃ t : Fin cfg1.N, win1_5.index t = ![r.val, 0] :=
  (by decide +kernel : ∀ r : Fin 10, ∃ t : Fin grid1.N, win1_5.index t = ![r.val, 0])

/-- The first aggregate's block at point `t` reads rows `5000 r …` of its array, `r` the output's block row. -/
theorem read_h (c : Dev nD) (t : Fin cfg1.N) (p : Fin 5000) (k : Fin 256) (x : S50000x256.Idx)
    (h0 : (x 0).val = win1_5.index t (0 : Fin 2) * 5000 + p.val) (h1 : (x 1).val = k.val) :
    (iblk1 V c 0 t : Vec Ideal S5000x256 .f32) (ValueIdx.ix2 p k) = (V c main_v19 : S50000x256.Idx → Elt Ideal .f32) x := by
  obtain ⟨e0, e1, -⟩ := blockRows t
  unfold iblk1
  rw [View.read_apply]
  show V c main_v19 _ = V c main_v19 x
  refine congrArg _ (funext fun a => Fin.ext ?_)
  match a with
  | ⟨0, _⟩ => show win1_0.index t (0 : Fin 2) * 5000 + 1 * p.val = (x 0).val; omega
  | ⟨1, _⟩ => show win1_0.index t (1 : Fin 2) * 256 + 1 * k.val = (x 1).val; omega

/-- The second aggregate's block at point `t` reads the same rows of its array. -/
theorem read_e (c : Dev nD) (t : Fin cfg1.N) (p : Fin 5000) (k : Fin 64) (x : S50000x64.Idx)
    (h0 : (x 0).val = win1_5.index t (0 : Fin 2) * 5000 + p.val) (h1 : (x 1).val = k.val) :
    (iblk1 V c 1 t : Vec Ideal S5000x64 .f32) (ValueIdx.ix2 p k) = (V c main_v22 : S50000x64.Idx → Elt Ideal .f32) x := by
  obtain ⟨-, -, e0, e1, -⟩ := blockRows t
  unfold iblk1
  rw [View.read_apply]
  show V c main_v22 _ = V c main_v22 x
  refine congrArg _ (funext fun a => Fin.ext ?_)
  match a with
  | ⟨0, _⟩ => show win1_1.index t (0 : Fin 2) * 5000 + 1 * p.val = (x 0).val; omega
  | ⟨1, _⟩ => show win1_1.index t (1 : Fin 2) * 64 + 1 * k.val = (x 1).val; omega

/-- The weight's block at every point is the whole weight. -/
theorem read_w (c : Dev nD) (t : Fin cfg1.N) (k : Fin 320) (q : Fin 256) (x : S320x256.Idx)
    (h0 : (x 0).val = k.val) (h1 : (x 1).val = q.val) :
    (iblk1 V c 2 t : Vec Ideal S320x256 .f32) (ValueIdx.ix2 k q) = (V c main_arg2 : S320x256.Idx → Elt Ideal .f32) x := by
  obtain ⟨-, -, -, -, e0, e1, -⟩ := blockRows t
  unfold iblk1
  rw [View.read_apply]
  show V c main_arg2 _ = V c main_arg2 x
  refine congrArg _ (funext fun a => Fin.ext ?_)
  match a with
  | ⟨0, _⟩ => show win1_2.index t (0 : Fin 2) * 320 + 1 * k.val = (x 0).val; omega
  | ⟨1, _⟩ => show win1_2.index t (1 : Fin 2) * 256 + 1 * q.val = (x 1).val; omega

/-- The bias's block at every point is the whole bias. -/
theorem read_b (c : Dev nD) (t : Fin cfg1.N) (q : Fin 256) (x : S256.Idx) (h0 : (x 0).val = q.val) :
    (iblk1 V c 3 t : Vec Ideal S256 .f32) (ValueIdx.ix1 q) = (V c main_arg3 : S256.Idx → Elt Ideal .f32) x := by
  obtain ⟨-, -, -, -, -, -, e0, -⟩ := blockRows t
  unfold iblk1
  rw [View.read_apply]
  show V c main_arg3 _ = V c main_arg3 x
  refine congrArg _ (funext fun a => Fin.ext ?_)
  match a with
  | ⟨0, _⟩ => show win1_3.index t (0 : Fin 1) * 256 + 1 * q.val = (x 0).val; omega

/-- The column's block at point `t` reads the same rows of the column. -/
theorem read_n (c : Dev nD) (t : Fin cfg1.N) (p : Fin 5000) (x : S50000x1.Idx)
    (h0 : (x 0).val = win1_5.index t (0 : Fin 2) * 5000 + p.val) :
    (iblk1 V c 4 t : Vec Ideal S5000x1 .f32) (ValueIdx.ix2 p (0 : Fin 1)) = (V c main_v30 : S50000x1.Idx → Elt Ideal .f32) x := by
  obtain ⟨-, -, -, -, -, -, -, e0, e1, -⟩ := blockRows t
  have hx1 : (x 1).val = 0 := by have hlt : (x 1).val < 1 := (x 1).isLt; omega
  unfold iblk1
  rw [View.read_apply]
  show V c main_v30 _ = V c main_v30 x
  refine congrArg _ (funext fun a => Fin.ext ?_)
  match a with
  | ⟨0, _⟩ => show win1_4.index t (0 : Fin 2) * 5000 + 1 * p.val = (x 0).val; omega
  | ⟨1, _⟩ => show win1_4.index t (1 : Fin 2) * 1 + 1 * 0 = (x 1).val; omega

/-- What point `t` writes back is its block of the layer's output of the five arrays as the region found them. -/
theorem flushed_eq (c : Dev nD) (t : Fin cfg1.N) :
    (dat1 (F := Ideal) V c).flushed 5 t
      = ((cfg1.win 5).blk t).view.read (Elt Ideal) (layer (V c main_v19) (V c main_v22) (V c main_arg2) (V c main_arg3) (V c main_v30)) := by
  show (cfg1.win 5).cut (grid1.coords t) ((dat1 V c).after 5 t) = _
  rw [after1_5]
  unfold out1_5
  rw [View.canon_unit_zero zeroOff2]
  simp only [View.ld_unit_zero (S := S320x256) zeroOff2, View.ld_unit_zero (S := S5000x256) zeroOff2,
    View.ld_unit_zero (S := S5000x64) zeroOff2, View.ld_unit_zero (S := S5000x1) zeroOff2, View.ld_unit_zero (S := S256) zeroOff1]
  obtain ⟨-, -, -, -, -, -, -, -, -, -, e1⟩ := blockRows t
  funext j
  show k1_pay1 (F := Ideal) (iblk1 V c 2 t) (iblk1 V c 0 t) (iblk1 V c 1 t) (iblk1 V c 4 t) (iblk1 V c 3 t) j
    = layer (V c main_v19) (V c main_v22) (V c main_arg2) (V c main_arg3) (V c main_v30) (((cfg1.win 5).blk t).view.emb j)
  refine pay_eq_layer _ _ _ _ _ _ _ _ _ _ (win1_5.index t (0 : Fin 2)) (read_w V c t) (read_h V c t) (read_e V c t) (read_n V c t) (read_b V c t) j _ ?_ ?_
  · show win1_5.index t (0 : Fin 2) * 5000 + 1 * (j 0).val = win1_5.index t (0 : Fin 2) * 5000 + (j 0).val; omega
  · show win1_5.index t (1 : Fin 2) * 256 + 1 * (j 1).val = (j 1).val; omega

/-- An entry of the output array is in point `t`'s block iff each coordinate is in the block's range on its axis. -/
theorem mem_blk (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v31).slice (win1_5.rect t)).set ↔ _
  rw [View.set_slice_whole, Rect.mem_set_unit]
  exact Iff.rfl

/-- Every entry of the output array is in some point's block: row `r` is in block row `r / 5000`. -/
theorem covered (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := blockRows_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 256 ≤ (i 1).val ∧ (i 1).val < win1_5.index t (1 : Fin 2) * 256 + 256; omega

/-- After region 1 its output array is `layer` of the five input arrays as the region found them. -/
theorem final (c : Dev nD) :
    (dat1 (F := Ideal) V c).arrAt 5 cfg1.N = layer (V c main_v19) (V c main_v22) (V c main_arg2) (V c main_arg3) (V c main_v30) :=
  (dat1 (F := Ideal) V c).arrAt_eq_of_cover 5 _ (fun t _ => flushed_eq V c t) covered

end Cert.KernelIdeal.LayerRows
-- ==== Proof.KernelValue.lean ====
/-
  The idealized kernel's result as one function of its six arguments.

  Read back from the last boundary: the second region leaves `layer` of its five input arrays as it found them; those
  are the two aggregates, the weight, the bias and the column of destination scales of the second stretch of host
  operations; the node aggregate is taken of the first region's output, which is the features with every row scaled by
  the column of source scales of the first stretch.
-/
import proofs.«108261_j13829794693475_1_alg».proof.Proof.KernelRun
import proofs.«108261_j13829794693475_1_alg».proof.Proof.Boundaries
import proofs.«108261_j13829794693475_1_alg».proof.Proof.ScaleRows
import proofs.«108261_j13829794693475_1_alg».proof.Proof.LayerRows

set_option maxRecDepth 16384

noncomputable section

namespace Cert.KernelIdeal.KernelValue

open Cert.KernelIdeal Cert.KernelIdeal.Gen Cert.KernelIdeal.HostTerms Cert.KernelIdeal.Boundaries
open Cert.KernelIdeal.ScaleRows Cert.KernelIdeal.LayerRows
open Idealize.ShloMosaic Idealize.ShloMosaic.TcCoe Idealize.SL.Sem

variable (m : (ℓ : Loc nD τ sig) → Buf (Elt Ideal) ℓ) (ρ : Dev nD → PrngReg)

/-- The layer's output as a function of the six argument arrays. -/
def result (x0 : (⟨S50000x256, .f32⟩ : BufTy).Contents (Elt Ideal)) (x1 : (⟨S800000x64, .f32⟩ : BufTy).Contents (Elt Ideal))
    (x2 : (⟨S320x256, .f32⟩ : BufTy).Contents (Elt Ideal)) (x3 : (⟨S256, .f32⟩ : BufTy).Contents (Elt Ideal))
    (x4 x5 : (⟨S800000, .i32⟩ : BufTy).Contents (Elt Ideal)) : (⟨S50000x256, .f32⟩ : BufTy).Contents (Elt Ideal) :=
  layer (aggNodes (F := Ideal) (rowsScaled x0 (scaleCol (F := Ideal) edgeOnes x4)) x4 x5) (aggEdges (F := Ideal) x1 x5) x2 x3
    (scaleCol (F := Ideal) edgeOnes x5)

/-- After the first region its output holds the features, every row scaled by its source scale. -/
theorem W2_v9 (c : Dev nD) :
    W2 m ρ c (Proc.devRef .tc main_v9)
      = rowsScaled (m ((c : Thread nD τ).loc main_arg0)) (scaleCol (F := Ideal) edgeOnes (m ((c : Thread nD τ).loc main_arg4))) := by
  refine (W2_arr m ρ c 2).trans ?_
  rw [ScaleRows.final (V1 m ρ) c]
  rw [show V1 m ρ c main_arg0 = m ((c : Thread nD τ).loc main_arg0) from W1_arg0 m ρ c,
    show V1 m ρ c main_v8 = scaleCol (F := Ideal) edgeOnes (m ((c : Thread nD τ).loc main_arg4)) from W1_v8 m ρ c]

/-- At the last boundary the result buffer holds `result` of the arguments as launched. -/
theorem W4_v31 (c : Dev nD) :
    W4 m ρ c (Proc.devRef .tc main_v31)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m ρ c 5).trans ?_
  rw [LayerRows.final (V3 m ρ) c]
  rw [show V3 m ρ c main_v19 = _ from W3_v19 m ρ c, show V3 m ρ c main_v22 = _ from W3_v22 m ρ c,
    show V3 m ρ c main_arg2 = _ from W3_arg2 m ρ c, show V3 m ρ c main_arg3 = _ from W3_arg3 m ρ c,
    show V3 m ρ c main_v30 = _ from W3_v30 m ρ c, W2_v9]
  rfl

/-- Every weakly fair execution of the idealized kernel's @main terminates, nothing faulting, with the result array at
    `result` of the arguments and the arguments as launched. -/
theorem run : θ_run defs (onTc (τ := τ) (main (F := Ideal))) ⟨m, fun _ => 0, ρ⟩ (fun r => ∀ c : Dev nD,
      r.2.mem ((c.tc : Thread nD τ).loc main_v31)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W4_v31 m ρ c), (h c).2⟩) (RunNamed.run_named m ρ)

end Cert.KernelIdeal.KernelValue

end
-- ==== Proof.Bridge.lean ====
/-
  The kernel's result and the reference's are one function of the arguments, at the ideal values.

  Both programs build the same host pieces (the two columns of scales, the two aggregates) with the same operations, so
  those are carried across unopened. What differs is three spellings. The kernel scales the features' rows inside its
  first region by a column of scales, the reference multiplies by that vector spread over the row: entry by entry the
  same product. The kernel multiplies the node aggregate by the top 256 rows of the weight and the edge aggregate by the
  bottom 64 rows and adds; the reference joins the two aggregates side by side and multiplies once by the whole
  weight: a sum over 320 columns is the sum over the first 256 plus the sum over the last 64, which holds in any
  commutative monoid, so no finiteness of the entries is used. The scale, the bias and the clamp at zero are then
  the same operations on both sides.
-/
import proofs.«108261_j13829794693475_1_alg».proof.Proof.Gen.ReferenceIdeal.Read
import proofs.«108261_j13829794693475_1_alg».proof.Proof.HostTerms
import proofs.«108261_j13829794693475_1_alg».proof.Proof.ScaleRows
import proofs.«108261_j13829794693475_1_alg».proof.Proof.LayerRows
import Idealize.ShloMosaic.Lib.Pipeline.Value
import Idealize.ShloMosaic.PureOps.Ideal.Laws

noncomputable section

namespace Cert.Bridge

open Cert.KernelIdeal Cert.KernelIdeal.Facts₀ Cert.KernelIdeal.HostTerms Cert.KernelIdeal.ScaleRows Cert.KernelIdeal.LayerRows
open Cert.ReferenceIdeal.Read
open Idealize.ShloMosaic Idealize.ShloMosaic.TcCoe

/-! ## The host pieces are the reference's stages -/

/-- The column of source scales is the reference's vector of source scales, laid out as a column. -/
theorem scaleCol_src (x4 : (⟨S800000, .i32⟩ : BufTy).Contents (Elt Ideal)) :
    scaleCol (F := Ideal) edgeOnes x4 = shapeCast S50000x1 (val_main_v7 (F := Ideal) x4) shapeCasts_S50000_S50000x1 := rfl

/-- The column of destination scales, likewise. -/
theorem scaleCol_dst (x5 : (⟨S800000, .i32⟩ : BufTy).Contents (Elt Ideal)) :
    scaleCol (F := Ideal) edgeOnes x5 = shapeCast S50000x1 (val_main_v32 (F := Ideal) x5) shapeCasts_S50000_S50000x1 := rfl

/-- The edge aggregate is the reference's. -/
theorem aggEdges_eq (x1 : (⟨S800000x64, .f32⟩ : BufTy).Contents (Elt Ideal)) (x5 : (⟨S800000, .i32⟩ : BufTy).Contents (Elt Ideal)) :
    aggEdges (F := Ideal) x1 x5 = val_main_v23 (F := Ideal) x1 x5 := rfl

/-- The node aggregate of the reference's scaled features is the reference's. -/
theorem aggNodes_eq (x0 : (⟨S50000x256, .f32⟩ : BufTy).Contents (Elt Ideal)) (x4 x5 : (⟨S800000, .i32⟩ : BufTy).Contents (Elt Ideal)) :
    aggNodes (F := Ideal) (val_main_v10 (F := Ideal) x0 x4) x4 x5 = val_main_v20 (F := Ideal) x0 x4 x5 := rfl

/-- A vector laid out as a column, read at `(p, 0)`, is the vector at `p`. -/
theorem column_read {α : Type} (y : S50000.Idx → α) (j : S50000x1.Idx) :
    shapeCast S50000x1 y shapeCasts_S50000_S50000x1 j = y (fun a => match a with | ⟨0, _⟩ => ⟨(j 0).val, (j 0).isLt⟩) := by
  refine shapeCast_apply y shapeCasts_S50000_S50000x1 j _ ?_
  rw [Shape.rowMajor_val_one, Shape.rowMajor_val_two]
  have h1 : (j 1).val < 1 := (j 1).isLt
  show (j 0).val = (j 0).val * 1 + (j 1).val
  omega

/-- The rows of the features scaled in the first region are the reference's scaled features. -/
theorem rowsScaled_eq (x0 : (⟨S50000x256, .f32⟩ : BufTy).Contents (Elt Ideal)) (x4 : (⟨S800000, .i32⟩ : BufTy).Contents (Elt Ideal)) :
    rowsScaled x0 (scaleCol (F := Ideal) edgeOnes x4) = val_main_v10 (F := Ideal) x0 x4 := by
  funext i
  show FloatOps.mulf (F := Ideal) (φ := .f32) (x0 i) (scaleCol (F := Ideal) edgeOnes x4 (ScaleRows.colOf i)) = _
  rw [val_main_v10_apply, val_main_v9_apply, val_main_v8_apply, scaleCol_src, column_read]
  rfl

/-! ## The joined aggregate read at an entry -/

/-- Two arrays of `M` rows joined side by side, read left of the seam: the left array at the same place. -/
theorem cols_left {α : Type} {M A B C : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, C]⟩ 1) (j : (⟨2, ![M, C]⟩ : Shape).Idx)
    (i : (⟨2, ![M, A]⟩ : Shape).Idx) (h0 : (i 0).val = (j 0).val) (h1 : (i 1).val = (j 1).val) :
    concatenate ⟨2, ![M, C]⟩ 1 [⟨⟨2, ![M, A]⟩, x₁⟩, ⟨⟨2, ![M, B]⟩, x₂⟩] h j = x₁ i :=
  concatenate_pair_apply_left (t := ⟨2, ![M, C]⟩) (s₁ := ⟨2, ![M, A]⟩) (s₂ := ⟨2, ![M, B]⟩) 1 x₁ x₂ h j rfl i
    (fun b => match b with | ⟨0, _⟩ => h0 | ⟨1, _⟩ => h1)

/-- … and from the seam on: the right array, `A` columns to the left. -/
theorem cols_right {α : Type} {M A B C : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, C]⟩ 1) (j : (⟨2, ![M, C]⟩ : Shape).Idx)
    (i : (⟨2, ![M, B]⟩ : Shape).Idx) (h0 : (i 0).val = (j 0).val) (h1 : (i 1).val + A = (j 1).val) :
    concatenate ⟨2, ![M, C]⟩ 1 [⟨⟨2, ![M, A]⟩, x₁⟩, ⟨⟨2, ![M, B]⟩, x₂⟩] h j = x₂ i :=
  concatenate_pair_apply_right (t := ⟨2, ![M, C]⟩) (s₁ := ⟨2, ![M, A]⟩) (s₂ := ⟨2, ![M, B]⟩) 1 x₁ x₂ h j rfl rfl i
    (fun b hb => match b, hb with | ⟨0, _⟩, _ => h0 | ⟨1, _⟩, hb => absurd rfl hb) h1

/-- Left of column 256 the joined aggregate is the node aggregate. -/
theorem joined_left (x0 : (⟨S50000x256, .f32⟩ : BufTy).Contents (Elt Ideal)) (x1 : (⟨S800000x64, .f32⟩ : BufTy).Contents (Elt Ideal))
    (x4 x5 : (⟨S800000, .i32⟩ : BufTy).Contents (Elt Ideal)) (i : S50000x256.Idx) (k : Fin 256) :
    val_main_v24 (F := Ideal) x0 x1 x4 x5 (lidx_main_v25 i ⟨k.val, by have := k.isLt; omega⟩) = val_main_v20 (F := Ideal) x0 x4 x5 (hAt i k) := by
  unfold val_main_v24
  exact cols_left (val_main_v20 (F := Ideal) x0 x4 x5) (val_main_v23 (F := Ideal) x1 x5)
    Cert.ReferenceIdeal.Facts₀.concatenates_S50000x256_S50000x64_S50000x320_d1 _ (hAt i k) rfl rfl

/-- From column 256 on it is the edge aggregate, 256 columns to the left. -/
theorem joined_right (x0 : (⟨S50000x256, .f32⟩ : BufTy).Contents (Elt Ideal)) (x1 : (⟨S800000x64, .f32⟩ : BufTy).Contents (Elt Ideal))
    (x4 x5 : (⟨S800000, .i32⟩ : BufTy).Contents (Elt Ideal)) (i : S50000x256.Idx) (k : Fin 64) :
    val_main_v24 (F := Ideal) x0 x1 x4 x5 (lidx_main_v25 i ⟨256 + k.val, by have := k.isLt; omega⟩) = val_main_v23 (F := Ideal) x1 x5 (eAt i k) := by
  unfold val_main_v24
  exact cols_right (val_main_v20 (F := Ideal) x0 x4 x5) (val_main_v23 (F := Ideal) x1 x5)
    Cert.ReferenceIdeal.Facts₀.concatenates_S50000x256_S50000x64_S50000x320_d1 _ (eAt i k) rfl (Nat.add_comm _ _)

/-- A sum over 320 columns is the sum over the first 256 plus the sum over the last 64. -/
theorem sum_split (f : Fin 320 → EReal) :
    ∑ k : Fin 320, f k = (∑ k : Fin 256, f ⟨k.val, by have := k.isLt; omega⟩) + ∑ k : Fin 64, f ⟨256 + k.val, by have := k.isLt; omega⟩ :=
  Fin.sum_univ_add (a := 256) (b := 64) f

/-! ## The layer -/

/-- The layer over the kernel's host pieces is the reference's result: entry by entry the reference's product over
    the 320 joined columns is the kernel's two products added, and the scale, the bias and the clamp at zero are the
    same operations on both sides. -/
theorem layer_eq (x0 : (⟨S50000x256, .f32⟩ : BufTy).Contents (Elt Ideal)) (x1 : (⟨S800000x64, .f32⟩ : BufTy).Contents (Elt Ideal))
    (x2 : (⟨S320x256, .f32⟩ : BufTy).Contents (Elt Ideal)) (x3 : (⟨S256, .f32⟩ : BufTy).Contents (Elt Ideal))
    (x4 x5 : (⟨S800000, .i32⟩ : BufTy).Contents (Elt Ideal)) :
    layer (aggNodes (F := Ideal) (rowsScaled x0 (scaleCol (F := Ideal) edgeOnes x4)) x4 x5) (aggEdges (F := Ideal) x1 x5) x2 x3
        (scaleCol (F := Ideal) edgeOnes x5)
      = val_main_v39 (F := Ideal) x0 x1 x2 x3 x4 x5 := by
  rw [rowsScaled_eq, aggNodes_eq, aggEdges_eq, scaleCol_dst]
  funext i
  rw [val_main_v39_apply, val_main_call0_v0_apply, val_main_call0_cst_apply, val_main_v38_apply, val_main_v35_apply,
    val_main_v37_apply, val_main_v36_apply, val_main_v34_apply, val_main_v33_apply, val_main_v25_apply, sum_split]
  unfold layer
  rw [column_read]
  simp only [joined_left, joined_right]
  rfl

end Cert.Bridge

end
-- ==== Proof.lean ====
/-
  The certificate of one graph-convolution layer: the kernel against its reference, over the extended reals.

  The layer scales the node features by `max(out-degree, 1) ^ (-1/2)`, gathers them along the edges, sums them and the
  edge features into the destination nodes, multiplies the joined aggregates by the weight, scales by
  `max(in-degree, 1) ^ (-1/2)`, adds the bias and clamps at zero. The kernel does the first scaling and the last stage in
  two pipelined regions and everything between on the host; the reference does all of it on the host.

  The three frames: both kernel programs by the generated frame over their two regions, the reference by its generated
  run with the result dropped. The idealization rewrote nothing, so there is nothing to preserve. The value claim: the
  kernel's run with its result named (`KernelValue.run`: the last boundary's contents read back through the two regions
  and the two stretches of host operations) against the reference's generated run, the two results one function of the
  arguments (`Bridge.layer_eq`).
-/
import proofs.«108261_j13829794693475_1_alg».proof.Defs
import proofs.«108261_j13829794693475_1_alg».proof.Proof.Gen.Kernel
import proofs.«108261_j13829794693475_1_alg».proof.Proof.Gen.Kernel.Frame
import proofs.«108261_j13829794693475_1_alg».proof.Proof.Gen.KernelIdeal
import proofs.«108261_j13829794693475_1_alg».proof.Proof.Gen.KernelIdeal.Frame
import proofs.«108261_j13829794693475_1_alg».proof.Proof.Gen.ReferenceIdeal
import proofs.«108261_j13829794693475_1_alg».proof.Proof.Gen.ReferenceIdeal.Run
import proofs.«108261_j13829794693475_1_alg».proof.Proof.Gen.ReferenceIdeal.Read
import proofs.«108261_j13829794693475_1_alg».proof.Proof.Gen.Pre_finite_inputs
import proofs.«108261_j13829794693475_1_alg».proof.Proof.KernelValue
import proofs.«108261_j13829794693475_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and end with the same result array. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2.1, (hagree c).2.2.2.1,
    (hagree c).2.2.2.2.1, (hagree c).2.2.2.2.2]
  exact (Cert.Bridge.layer_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
